-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v29)) (v1 : (c : Dev Cert.KernelIdeal.nD) → Buf (Elt Ideal) ((c.tc : Thread Cert.KernelIdeal.nD Cert.KernelIdeal.τ).loc Cert.KernelIdeal.main_v37)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x12288 : Shape := ⟨2, ![12288, 12288]⟩
abbrev S6144x64 : Shape := ⟨2, ![6144, 64]⟩
abbrev S2048 : Shape := ⟨1, ![2048]⟩
abbrev S8192 : Shape := ⟨1, ![8192]⟩
abbrev S1 : Shape := ⟨1, ![1]⟩
abbrev S_ : Shape := ⟨0, ![]⟩

class Facts : Prop where
  bcast_S_S12288x12288 : S_.BroadcastsInDim S12288x12288 (![] : Fin 0 → Fin S12288x12288.rank)
  reducesTo_S12288x12288_S_d0_1 : S12288x12288.ReducesTo [0, 1] S_
  h_S_ : 0 < S_.numel
  bcast_S_S6144x64 : S_.BroadcastsInDim S6144x64 (![] : Fin 0 → Fin S6144x64.rank)
  reducesTo_S6144x64_S_d0_1 : S6144x64.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S12288x12288 .f32) (main_arg1 : FVec F S6144x64 .f32) (main_arg2 : FVec F S6144x64 .f32) (main_arg3 : IVec S2048 32) (main_arg4 : IVec S2048 32) (main_arg5 : IVec S8192 32) (main_arg6 : FVec F S1 .f32) : IVec S_ 1 :=
  let main_v0 : FVec F S12288x12288 .f32 := Host.absf main_arg0
  let main_cst : FVec F S_ .f32 := constant S_ .f32 0x7F800000#32
  let main_v1 : FVec F S12288x12288 .f32 := broadcastInDim S12288x12288 ![] bcast_S_S12288x12288 main_cst
  let main_v2 : IVec S12288x12288 1 := cmpf .olt main_v0 main_v1
  let main_c : IVec S_ 1 := constantI S_ 1 1#1
  let main_v3 : IVec S_ 1 := (fun x v => Host.reduce IntOp.andi x v reducesTo_S12288x12288_S_d0_1 h_S_) main_v2 main_c
  let main_v4 : FVec F S6144x64 .f32 := Host.absf main_arg1
  let main_cst_0 : FVec F S_ .f32 := constant S_ .f32 0x7F800000#32
  let main_v5 : FVec F S6144x64 .f32 := broadcastInDim S6144x64 ![] bcast_S_S6144x64 main_cst_0
  let main_v6 : IVec S6144x64 1 := cmpf .olt main_v4 main_v5
  let main_c_1 : IVec S_ 1 := constantI S_ 1 1#1
  let main_v7 : IVec S_ 1 := (fun x v => Host.reduce IntOp.andi x v reducesTo_S6144x64_S_d0_1 h_S_) main_v6 main_c_1
  let main_v8 : IVec S_ 1 := andi main_v3 main_v7
  let main_v9 : FVec F S6144x64 .f32 := Host.absf main_arg2
  let main_cst_2 : FVec F S_ .f32 := constant S_ .f32 0x7F800000#32
  let main_v10 : FVec F S6144x64 .f32 := broadcastInDim S6144x64 ![] bcast_S_S6144x64 main_cst_2
  let main_v11 : IVec S6144x64 1 := cmpf .olt main_v9 main_v10
  let main_c_3 : IVec S_ 1 := constantI S_ 1 1#1
  let main_v12 : IVec S_ 1 := (fun x v => Host.reduce IntOp.andi x v reducesTo_S6144x64_S_d0_1 h_S_) main_v11 main_c_3
  let main_v13 : IVec S_ 1 := andi main_v8 main_v12
  let main_v14 : FVec F S1 .f32 := Host.absf main_arg6
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S12288x12288 : Shape := ⟨2, ![12288, 12288]⟩
abbrev S6144x64 : Shape := ⟨2, ![6144, 64]⟩
abbrev S2048 : Shape := ⟨1, ![2048]⟩
abbrev S8192 : Shape := ⟨1, ![8192]⟩
abbrev S1 : Shape := ⟨1, ![1]⟩
abbrev S_ : Shape := ⟨0, ![]⟩
abbrev S2049 : Shape := ⟨1, ![2049]⟩
abbrev S12288 : Shape := ⟨1, ![12288]⟩
abbrev S2049x1 : Shape := ⟨2, ![2049, 1]⟩
abbrev S12288x64 : Shape := ⟨2, ![12288, 64]⟩
abbrev S12288x1 : Shape := ⟨2, ![12288, 1]⟩
abbrev S1x12288 : Shape := ⟨2, ![1, 12288]⟩
abbrev S1024x2048 : Shape := ⟨2, ![1024, 2048]⟩
abbrev S2048x64 : Shape := ⟨2, ![2048, 64]⟩
abbrev S1024x1 : Shape := ⟨2, ![1024, 1]⟩
abbrev S1x2048 : Shape := ⟨2, ![1, 2048]⟩
abbrev S1024x64 : Shape := ⟨2, ![1024, 64]⟩
abbrev S2048x1 : Shape := ⟨2, ![2048, 1]⟩
abbrev S8192x1 : Shape := ⟨2, ![8192, 1]⟩
abbrev S8192x64 : Shape := ⟨2, ![8192, 64]⟩

abbrev nBuf : Space → Nat
  | .hbm => 66
  | .vmem => 11
  | .smem => 0
  | _ => 0

abbrev bufTy : (tb : Table) → Fin (tcTables nBuf tb) → BufTy
  | .hbm, ⟨0, _⟩ => ⟨S12288x12288, .f32⟩
  | .hbm, ⟨1, _⟩ => ⟨S6144x64, .f32⟩
  | .hbm, ⟨2, _⟩ => ⟨S6144x64, .f32⟩
  | .hbm, ⟨3, _⟩ => ⟨S2048, .i32⟩
  | .hbm, ⟨4, _⟩ => ⟨S2048, .i32⟩
  | .hbm, ⟨5, _⟩ => ⟨S8192, .i32⟩
  | .hbm, ⟨6, _⟩ => ⟨S1, .f32⟩
  | .hbm, ⟨7, _⟩ => ⟨S1, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2049, .i32⟩
  | .hbm, ⟨12, _⟩ => ⟨S_, .f32⟩
  | .hbm, ⟨13, _⟩ => ⟨S12288, .f32⟩
  | .hbm, ⟨14, _⟩ => ⟨S_, .i32⟩
  | .hbm, ⟨15, _⟩ => ⟨S2049, .i32⟩
  | .hbm, ⟨16, _⟩ => ⟨S2049, .i1⟩
  | .hbm, ⟨17, _⟩ => ⟨S_, .i32⟩
  | .hbm, ⟨18, _⟩ => ⟨S2049, .i32⟩
  | .hbm, ⟨19, _⟩ => ⟨S2049, .i32⟩
  | .hbm, ⟨20, _⟩ => ⟨S2049, .i32⟩
  | .hbm, ⟨21, _⟩ => ⟨S2049x1, .i32⟩
  | .hbm, ⟨22, _⟩ => ⟨S_, .f32⟩
  | .hbm, ⟨23, _⟩ => ⟨S2049, .f32⟩
  | .hbm, ⟨24, _⟩ => ⟨S12288, .f32⟩
  | .hbm, ⟨25, _⟩ => ⟨S12288x64, .f32⟩
  | .hbm, ⟨26, _⟩ => ⟨S12288x1, .f32⟩
  | .hbm, ⟨27, _⟩ => ⟨S1x12288, .f32⟩
  | .hbm, ⟨28, _⟩ => ⟨S12288x64, .f32⟩
  | .hbm, ⟨29, _⟩ => ⟨S_, .f32⟩
  | .hbm, ⟨30, _⟩ => ⟨S12288x64, .f32⟩
  | .hbm, ⟨31, _⟩ => ⟨S12288x64, .f32⟩
  | .hbm, ⟨32, _⟩ => ⟨S12288x64, .f32⟩
  | .hbm, ⟨33, _⟩ => ⟨S_, .f32⟩
  | .hbm, ⟨34, _⟩ => ⟨S12288x64, .f32⟩
  | .hbm, ⟨35, _⟩ => ⟨S12288x64, .f32⟩
  | .hbm, ⟨36, _⟩ => ⟨S6144x64, .f32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S_, .i32⟩
  | .hbm, ⟨41, _⟩ => ⟨S2048, .i32⟩
  | .hbm, ⟨42, _⟩ => ⟨S2048, .i32⟩
  | .hbm, ⟨43, _⟩ => ⟨S2048, .i32⟩
  | .hbm, ⟨44, _⟩ => ⟨S2048x1, .i32⟩
  | .hbm, ⟨45, _⟩ => ⟨S2048x64, .f32⟩
  | .hbm, ⟨46, _⟩ => ⟨S6144x64, .f32⟩
  | .hbm, ⟨47, _⟩ => ⟨S_, .i32⟩
  | .hbm, ⟨48, _⟩ => ⟨S2048, .i32⟩
  | .hbm, ⟨49, _⟩ => ⟨S2048, .i1⟩
  | .hbm, ⟨50, _⟩ => ⟨S_, .i32⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048x1, .i32⟩
  | .hbm, ⟨55, _⟩ => ⟨S2048x64, .f32⟩
  | .hbm, ⟨56, _⟩ => ⟨S6144x64, .f32⟩
  | .hbm, ⟨57, _⟩ => ⟨S_, .i32⟩
  | .hbm, ⟨58, _⟩ => ⟨S8192, .i32⟩
  | .hbm, ⟨59, _⟩ => ⟨S8192, .i1⟩
  | .hbm, ⟨60, _⟩ => ⟨S_, .i32⟩
  | .hbm, ⟨61, _⟩ => ⟨S8192, .i32⟩
  | .hbm, ⟨62, _⟩ => ⟨S8192, .i32⟩
  | .hbm, ⟨63, _⟩ => ⟨S8192, .i32⟩
  | .hbm, ⟨64, _⟩ => ⟨S8192x1, .i32⟩
  | .hbm, ⟨65, _⟩ => ⟨S8192x64, .f32⟩
  | .local _ .vmem, ⟨0, _⟩ => ⟨S1024x2048, .f32⟩
  | .local _ .vmem, ⟨1, _⟩ => ⟨S1024x2048, .f32⟩
  | .local _ .vmem, ⟨2, _⟩ => ⟨S2048x64, .f32⟩
  | .local _ .vmem, ⟨3, _⟩ => ⟨S2048x64, .f32⟩
  | .local _ .vmem, ⟨4, _⟩ => ⟨S1024x1, .f32⟩
  | .local _ .vmem, ⟨5, _⟩ => ⟨S1024x1, .f32⟩
  | .local _ .vmem, ⟨6, _⟩ => ⟨S1x2048, .f32⟩
  | .local _ .vmem, ⟨7, _⟩ => ⟨S1x2048, .f32⟩
  | .local _ .vmem, ⟨8, _⟩ => ⟨S1024x64, .f32⟩
  | .local _ .vmem, ⟨9, _⟩ => ⟨S1024x64, .f32⟩
  | .local _ .vmem, ⟨10, _⟩ => ⟨S1024x64, .f32⟩
  | _, _ => ⟨S12288x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_c_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_c_8 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_c_9 : Ref sig .tc := ⟨.hbm, 57, rfl⟩
abbrev main_v39 : Ref sig .tc := ⟨.hbm, 58, rfl⟩
abbrev main_v40 : Ref sig .tc := ⟨.hbm, 59, rfl⟩
abbrev main_c_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![12, 6], ![false, false]⟩

def k0_cond2 (i : grid0.Coords) : BitVec 1 :=
  let arg1 : BitVec 32 := BitVec.ofNat 32 (i 1).val
  let c5_i32 : BitVec 32 := 5#32
  let v20 : BitVec 1 := Scalar.cmpi .eq arg1 c5_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2048_S1_0 : S2048.Slices ![0] S1
  bcast_S_S2048 : S_.BroadcastsInDim S2048 (![] : Fin 0 → Fin S2048.rank)
  concatenates_S1_S2048_S2049_d0 : Shape.Concatenates [S1, S2048] S2049 0
  bcast_S_S12288 : S_.BroadcastsInDim S12288 (![] : Fin 0 → Fin S12288.rank)
  bcast_S_S2049 : S_.BroadcastsInDim S2049 (![] : Fin 0 → Fin S2049.rank)
  bcast_S2049_S2049x1_0 : S2049.BroadcastsInDim S2049x1 (![0] : Fin 1 → Fin S2049x1.rank)
  concatenates_S6144x64_S6144x64_S12288x64_d0 : Shape.Concatenates [S6144x64, S6144x64] S12288x64 0
  shapeCasts_S12288_S12288x1 : S12288.ShapeCasts S12288x1
  shapeCasts_S12288_S1x12288 : S12288.ShapeCasts S1x12288
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  bcast_S_S12288x64 : S_.BroadcastsInDim S12288x64 (![] : Fin 0 → Fin S12288x64.rank)
  slices_S12288x64_S6144x64_0_0 : S12288x64.Slices ![0, 0] S6144x64
  bcast_S2048_S2048x1_0 : S2048.BroadcastsInDim S2048x1 (![0] : Fin 1 → Fin S2048x1.rank)
  slices_S12288x64_S6144x64_6144_0 : S12288x64.Slices ![6144, 0] S6144x64
  bcast_S_S8192 : S_.BroadcastsInDim S8192 (![] : Fin 0 → Fin S8192.rank)
  bcast_S8192_S8192x1_0 : S8192.BroadcastsInDim S8192x1 (![0] : Fin 1 → Fin S8192x1.rank)
  scatter_S12288_S2049x1_S2049_n_0_0_1_wf : ScatterDims.WF S12288 S2049x1 S2049 [] [0] [0] 1
  dot_S1024x2048_S2048x64_S1024x64_1_0_0_1_n_n_wf : DotDims.WF S1024x2048 S2048x64 S1024x64 [1] [0] [0] [1] [] []
  gather_S6144x64_S2048x1_S2048x64_1_0_n_n_0_1_164_wf : GatherDims.WF S6144x64 S2048x1 S2048x64 [1] [0] [] [0] [] 1 ![1, 64]
  gather_S6144x64_S8192x1_S8192x64_1_0_n_n_0_1_164_wf : GatherDims.WF S6144x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S12288x12288.size a
  hwx0_0 : ∀ i : grid0.Coords, EltTy.bits .f32 = 32 ∨ (Rect.block (s := S12288x12288) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S12288x64.size a
  hwx0_1 : ∀ i : grid0.Coords, EltTy.bits .f32 = 32 ∨ (Rect.block (s := S12288x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S12288x1.size a
  hwx0_2 : ∀ i : grid0.Coords, EltTy.bits .f32 = 32 ∨ (Rect.block (s := S12288x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x12288.size a
  hwx0_3 : ∀ i : grid0.Coords, EltTy.bits .f32 = 32 ∨ (Rect.block (s := S1x12288) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S12288x64.size a
  hwx0_4 : ∀ i : grid0.Coords, EltTy.bits .f32 = 32 ∨ (Rect.block (s := S12288x64) S1024x64.size (cc0_transform_4 i) (hinb0_4 i)).WholeWords (EltTy.packing .f32)

variable [Facts₀]

def scatter_S12288_S2049x1_S2049_n_0_0_1 : ScatterDims S12288 S2049x1 S2049 where
  updateWindowDims := []
  insertedWindowDims := [0]
  scatterDimsToOperandDims := [0]
  indexVectorDim := 1
  wf := scatter_S12288_S2049x1_S2049_n_0_0_1_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def gather_S6144x64_S2048x1_S2048x64_1_0_n_n_0_1_164 : GatherDims S6144x64 S2048x1 S2048x64 where
  offsetDims := [1]
  collapsedSliceDims := [0]
  operandBatchingDims := []
  startIndicesBatchingDims := []
  startIndexMap := [0]
  indexVectorDim := 1
  sliceSizes := ![1, 64]
  wf := gather_S6144x64_S2048x1_S2048x64_1_0_n_n_0_1_164_wf
def gather_S6144x64_S8192x1_S8192x64_1_0_n_n_0_1_164 : GatherDims S6144x64 S8192x1 S8192x64 where
  offsetDims := [1]
  collapsedSliceDims := [0]
  operandBatchingDims := []
  startIndicesBatchingDims := []
  startIndexMap := [0]
  indexVectorDim := 1
  sliceSizes := ![1, 64]
  wf := gather_S6144x64_S8192x1_S8192x64_1_0_n_n_0_1_164_wf

abbrev win0_0 : Pipeline.Window sig grid0 :=
  Pipeline.Window.ofSpec (Memref.whole main_arg0) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S12288x12288 : Shape := ⟨2, ![12288, 12288]⟩
abbrev S6144x64 : Shape := ⟨2, ![6144, 64]⟩
abbrev S2048 : Shape := ⟨1, ![2048]⟩
abbrev S8192 : Shape := ⟨1, ![8192]⟩
abbrev S1 : Shape := ⟨1, ![1]⟩
abbrev S_ : Shape := ⟨0, ![]⟩
abbrev S2049 : Shape := ⟨1, ![2049]⟩
abbrev S12288 : Shape := ⟨1, ![12288]⟩
abbrev S2049x1 : Shape := ⟨2, ![2049, 1]⟩
abbrev S12288x1 : Shape := ⟨2, ![12288, 1]⟩
abbrev S1x12288 : Shape := ⟨2, ![1, 12288]⟩
abbrev S12288x64 : Shape := ⟨2, ![12288, 64]⟩
abbrev S2048x1 : Shape := ⟨2, ![2048, 1]⟩
abbrev S2048x64 : Shape := ⟨2, ![2048, 64]⟩
abbrev S8192x1 : Shape := ⟨2, ![8192, 1]⟩
abbrev S8192x64 : Shape := ⟨2, ![8192, 64]⟩

abbrev nBuf : Space → Nat
  | .hbm => 70
  | .vmem => 0
  | .smem => 0
  | _ => 0

abbrev bufTy : (tb : Table) → Fin (tcTables nBuf tb) → BufTy
  | .hbm, ⟨0, _⟩ => ⟨S12288x12288, .f32⟩
  | .hbm, ⟨1, _⟩ => ⟨S6144x64, .f32⟩
  | .hbm, ⟨2, _⟩ => ⟨S6144x64, .f32⟩
  | .hbm, ⟨3, _⟩ => ⟨S2048, .i32⟩
  | .hbm, ⟨4, _⟩ => ⟨S2048, .i32⟩
  | .hbm, ⟨5, _⟩ => ⟨S8192, .i32⟩
  | .hbm, ⟨6, _⟩ => ⟨S1, .f32⟩
  | .hbm, ⟨7, _⟩ => ⟨S1, .i32⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2049, .i32⟩
  | .hbm, ⟨12, _⟩ => ⟨S_, .f32⟩
  | .hbm, ⟨13, _⟩ => ⟨S12288, .f32⟩
  | .hbm, ⟨14, _⟩ => ⟨S_, .i32⟩
  | .hbm, ⟨15, _⟩ => ⟨S2049, .i32⟩
  | .hbm, ⟨16, _⟩ => ⟨S2049, .i1⟩
  | .hbm, ⟨17, _⟩ => ⟨S_, .i32⟩
  | .hbm, ⟨18, _⟩ => ⟨S2049, .i32⟩
  | .hbm, ⟨19, _⟩ => ⟨S2049, .i32⟩
  | .hbm, ⟨20, _⟩ => ⟨S2049, .i32⟩
  | .hbm, ⟨21, _⟩ => ⟨S2049x1, .i32⟩
  | .hbm, ⟨22, _⟩ => ⟨S_, .f32⟩
  | .hbm, ⟨23, _⟩ => ⟨S2049, .f32⟩
  | .hbm, ⟨24, _⟩ => ⟨S12288, .f32⟩
  | .hbm, ⟨25, _⟩ => ⟨S12288x1, .f32⟩
  | .hbm, ⟨26, _⟩ => ⟨S1x12288, .f32⟩
  | .hbm, ⟨27, _⟩ => ⟨S12288x12288, .f32⟩
  | .hbm, ⟨28, _⟩ => ⟨S12288x12288, .f32⟩
  | .hbm, ⟨29, _⟩ => ⟨S12288x12288, .f32⟩
  | .hbm, ⟨30, _⟩ => ⟨S12288x12288, .f32⟩
  | .hbm, ⟨31, _⟩ => ⟨S12288x64, .f32⟩
  | .hbm, ⟨32, _⟩ => ⟨S12288x64, .f32⟩
  | .hbm, ⟨33, _⟩ => ⟨S_, .f32⟩
  | .hbm, ⟨34, _⟩ => ⟨S12288x64, .f32⟩
  | .hbm, ⟨35, _⟩ => ⟨S12288x64, .f32⟩
  | .hbm, ⟨36, _⟩ => ⟨S12288x64, .f32⟩
  | .hbm, ⟨37, _⟩ => ⟨S_, .f32⟩
  | .hbm, ⟨38, _⟩ => ⟨S12288x64, .f32⟩
  | .hbm, ⟨39, _⟩ => ⟨S12288x64, .f32⟩
  | .hbm, ⟨40, _⟩ => ⟨S6144x64, .f32⟩
  | .hbm, ⟨41, _⟩ => ⟨S_, .i32⟩
  | .hbm, ⟨42, _⟩ => ⟨S2048, .i32⟩
  | .hbm, ⟨43, _⟩ => ⟨S2048, .i1⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S2048x1, .i32⟩
  | .hbm, ⟨49, _⟩ => ⟨S2048x64, .f32⟩
  | .hbm, ⟨50, _⟩ => ⟨S6144x64, .f32⟩
  | .hbm, ⟨51, _⟩ => ⟨S_, .i32⟩
  | .hbm, ⟨52, _⟩ => ⟨S2048, .i32⟩
  | .hbm, ⟨53, _⟩ => ⟨S2048, .i1⟩
  | .hbm, ⟨54, _⟩ => ⟨S_, .i32⟩
  | .hbm, ⟨55, _⟩ => ⟨S2048, .i32⟩
  | .hbm, ⟨56, _⟩ => ⟨S2048, .i32⟩
  | .hbm, ⟨57, _⟩ => ⟨S2048, .i32⟩
  | .hbm, ⟨58, _⟩ => ⟨S2048x1, .i32⟩
  | .hbm, ⟨59, _⟩ => ⟨S2048x64, .f32⟩
  | .hbm, ⟨60, _⟩ => ⟨S6144x64, .f32⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S8192x64, .f32⟩
  | _, _ => ⟨S12288x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c_0 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_5 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_c_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_9 : Ref sig .tc := ⟨.hbm, 61, rfl⟩
abbrev main_v43 : Ref sig .tc := ⟨.hbm, 62, rfl⟩
abbrev main_v44 : Ref sig .tc := ⟨.hbm, 63, rfl⟩
abbrev main_c_10 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2048_S1_0 : S2048.Slices ![0] S1
  bcast_S_S2048 : S_.BroadcastsInDim S2048 (![] : Fin 0 → Fin S2048.rank)
  concatenates_S1_S2048_S2049_d0 : Shape.Concatenates [S1, S2048] S2049 0
  bcast_S_S12288 : S_.BroadcastsInDim S12288 (![] : Fin 0 → Fin S12288.rank)
  bcast_S_S2049 : S_.BroadcastsInDim S2049 (![] : Fin 0 → Fin S2049.rank)
  bcast_S2049_S2049x1_0 : S2049.BroadcastsInDim S2049x1 (![0] : Fin 1 → Fin S2049x1.rank)
  bcast_S12288_S12288x1_0 : S12288.BroadcastsInDim S12288x1 (![0] : Fin 1 → Fin S12288x1.rank)
  bcast_S12288_S1x12288_1 : S12288.BroadcastsInDim S1x12288 (![1] : Fin 1 → Fin S1x12288.rank)
  bcast_S12288x1_S12288x12288_0_1 : S12288x1.BroadcastsInDim S12288x12288 (![0, 1] : Fin 2 → Fin S12288x12288.rank)
  bcast_S1x12288_S12288x12288_0_1 : S1x12288.BroadcastsInDim S12288x12288 (![0, 1] : Fin 2 → Fin S12288x12288.rank)
  concatenates_S6144x64_S6144x64_S12288x64_d0 : Shape.Concatenates [S6144x64, S6144x64] S12288x64 0
  bcast_S_S12288x64 : S_.BroadcastsInDim S12288x64 (![] : Fin 0 → Fin S12288x64.rank)
  slices_S12288x64_S6144x64_0_0 : S12288x64.Slices ![0, 0] S6144x64
  bcast_S2048_S2048x1_0 : S2048.BroadcastsInDim S2048x1 (![0] : Fin 1 → Fin S2048x1.rank)
  slices_S12288x64_S6144x64_6144_0 : S12288x64.Slices ![6144, 0] S6144x64
  bcast_S_S8192 : S_.BroadcastsInDim S8192 (![] : Fin 0 → Fin S8192.rank)
  bcast_S8192_S8192x1_0 : S8192.BroadcastsInDim S8192x1 (![0] : Fin 1 → Fin S8192x1.rank)
  scatter_S12288_S2049x1_S2049_n_0_0_1_wf : ScatterDims.WF S12288 S2049x1 S2049 [] [0] [0] 1
  dot_S12288x12288_S12288x64_S12288x64_1_0_0_1_n_n_wf : DotDims.WF S12288x12288 S12288x64 S12288x64 [1] [0] [0] [1] [] []
  gather_S6144x64_S2048x1_S2048x64_1_0_n_n_0_1_164_wf : GatherDims.WF S6144x64 S2048x1 S2048x64 [1] [0] [] [0] [] 1 ![1, 64]
  gather_S6144x64_S8192x1_S8192x64_1_0_n_n_0_1_164_wf : GatherDims.WF S6144x64 S8192x1 S8192x64 [1] [0] [] [0] [] 1 ![1, 64]

variable [Facts₀]

def scatter_S12288_S2049x1_S2049_n_0_0_1 : ScatterDims S12288 S2049x1 S2049 where
  updateWindowDims := []
  insertedWindowDims := [0]
  scatterDimsToOperandDims := [0]
  indexVectorDim := 1
  wf := scatter_S12288_S2049x1_S2049_n_0_0_1_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf
def gather_S6144x64_S2048x1_S2048x64_1_0_n_n_0_1_164 : GatherDims S6144x64 S2048x1 S2048x64 where
  offsetDims := [1]
  collapsedSliceDims := [0]
  operandBatchingDims := []
  startIndicesBatchingDims := []
  startIndexMap := [0]
  indexVectorDim := 1
  sliceSizes := ![1, 64]
  wf := gather_S6144x64_S2048x1_S2048x64_1_0_n_n_0_1_164_wf
def gather_S6144x64_S8192x1_S8192x64_1_0_n_n_0_1_164 : GatherDims S6144x64 S8192x1 S8192x64 where
  offsetDims := [1]
  collapsedSliceDims := [0]
  operandBatchingDims := []
  startIndicesBatchingDims := []
  startIndexMap := [0]
  indexVectorDim := 1
  sliceSizes := ![1, 64]
  wf := gather_S6144x64_S8192x1_S8192x64_1_0_n_n_0_1_164_wf

class Facts : Prop extends Facts₀ where

variable [Facts]
-- ==== Proof.Pieces.lean ====
/-
  What each control case of the body leaves behind, as values.

  The body has three cases over the 6 column tiles of one row block: the first tile (the accumulator is reset to
  zero, then updated), a middle tile (updated only), and the last tile (updated, then copied to the output block).
  In every case the accumulator ends at the update's payload: the old contents — the zero block in the first case —
  plus the tile's masked contraction; in the last case the output block ends at that same value.
-/
import proofs.«110538_j54949811585066_1_alg».proof.Proof.Gen.KernelIdeal.Frame
import Idealize.ShloMosaic.Lib.Pipeline.Value
import Idealize.ShloMosaic.Lib.Tactic

noncomputable section

namespace Cert.KernelIdeal.PropValue

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A middle tile: the accumulator, holding `acc`, ends at the update's payload over `acc`. -/
theorem scratch_B (c : Dev nD) (i : grid0.Coords) (a2 : Memref sig .tc .vmem S1024x2048 .f32) (h2 : a2.IsWhole) (a3 : Memref sig .tc .vmem S2048x64 .f32) (h3 : a3.IsWhole) (a4 : Memref sig .tc .vmem S1024x1 .f32) (h4 : a4.IsWhole) (a5 : Memref sig .tc .vmem S1x2048 .f32) (h5 : a5.IsWhole) (a6 : Memref sig .tc .vmem S1024x64 .f32) (h6 : a6.IsWhole) (a7 : Memref sig .tc .vmem S1024x64 .f32) (h7 : a7.IsWhole) (hc0 : ¬cond0_0 i) (hc1 : ¬cond0_1 i) (x0 : Vec F S1024x2048 .f32) (x1 : Vec F S2048x64 .f32) (x2 : Vec F S1024x1 .f32) (x3 : Vec F S1x2048 .f32) (xs0 : Vec F S1024x64 .f32) :
    sout0_B_0 c i a2 h2 a3 h3 a4 h4 a5 h5 a6 h6 a7 h7 hc0 hc1 x0 x1 x2 x3 xs0 = k0_pay2 x2 x3 x0 xs0 x1 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero hz]
  simp only [View.readAt_eq_ld, h2.read_unread, h3.read_unread, h4.read_unread, h5.read_unread, h6.read_unread, h7.read_unread, View.ld_unit_zero (S := S1024x2048) hz, View.ld_unit_zero (S := S2048x64) hz, View.ld_unit_zero (S := S1024x1) hz, View.ld_unit_zero (S := S1x2048) hz, View.ld_unit_zero (S := S1024x64) hz]

/-- The last tile: the same update of the accumulator, -/
theorem scratch_C (c : Dev nD) (i : grid0.Coords) (a2 : Memref sig .tc .vmem S1024x2048 .f32) (h2 : a2.IsWhole) (a3 : Memref sig .tc .vmem S2048x64 .f32) (h3 : a3.IsWhole) (a4 : Memref sig .tc .vmem S1024x1 .f32) (h4 : a4.IsWhole) (a5 : Memref sig .tc .vmem S1x2048 .f32) (h5 : a5.IsWhole) (a6 : Memref sig .tc .vmem S1024x64 .f32) (h6 : a6.IsWhole) (a7 : Memref sig .tc .vmem S1024x64 .f32) (h7 : a7.IsWhole) (hc0 : ¬cond0_0 i) (hc1 : cond0_1 i) (x0 : Vec F S1024x2048 .f32) (x1 : Vec F S2048x64 .f32) (x2 : Vec F S1024x1 .f32) (x3 : Vec F S1x2048 .f32) (xs0 : Vec F S1024x64 .f32) :
    sout0_C_0 c i a2 h2 a3 h3 a4 h4 a5 h5 a6 h6 a7 h7 hc0 hc1 x0 x1 x2 x3 xs0 = k0_pay2 x2 x3 x0 xs0 x1 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero hz]
  simp only [View.readAt_eq_ld, h2.read_unread, h3.read_unread, h4.read_unread, h5.read_unread, h6.read_unread, h7.read_unread, View.ld_unit_zero (S := S1024x2048) hz, View.ld_unit_zero (S := S2048x64) hz, View.ld_unit_zero (S := S1024x1) hz, View.ld_unit_zero (S := S1x2048) hz, View.ld_unit_zero (S := S1024x64) hz]

/-- and the output block is stored with the accumulator read back after that update. -/
theorem out_C (c : Dev nD) (i : grid0.Coords) (a2 : Memref sig .tc .vmem S1024x2048 .f32) (h2 : a2.IsWhole) (a3 : Memref sig .tc .vmem S2048x64 .f32) (h3 : a3.IsWhole) (a4 : Memref sig .tc .vmem S1024x1 .f32) (h4 : a4.IsWhole) (a5 : Memref sig .tc .vmem S1x2048 .f32) (h5 : a5.IsWhole) (a6 : Memref sig .tc .vmem S1024x64 .f32) (h6 : a6.IsWhole) (a7 : Memref sig .tc .vmem S1024x64 .f32) (h7 : a7.IsWhole) (hc0 : ¬cond0_0 i) (hc1 : cond0_1 i) (x0 : Vec F S1024x2048 .f32) (x1 : Vec F S2048x64 .f32) (x2 : Vec F S1024x1 .f32) (x3 : Vec F S1x2048 .f32) (xs0 : Vec F S1024x64 .f32) :
    out0_C_4 c i a2 h2 a3 h3 a4 h4 a5 h5 a6 h6 a7 h7 hc0 hc1 x0 x1 x2 x3 xs0 = k0_pay2 x2 x3 x0 xs0 x1 := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero hz]
  simp only [View.readCov_unit_zero (S := S1024x64) _ hz, View.readAt_eq_ld, h2.read_unread, h3.read_unread, h4.read_unread, h5.read_unread, h6.read_unread, h7.read_unread, View.ld_unit_zero (S := S1024x2048) hz, View.ld_unit_zero (S := S2048x64) hz, View.ld_unit_zero (S := S1024x1) hz, View.ld_unit_zero (S := S1x2048) hz, View.ld_unit_zero (S := S1024x64) hz]

/-- The first tile: the accumulator is stored with the zero block, read back, and updated over it. -/
theorem scratch_A (c : Dev nD) (i : grid0.Coords) (a2 : Memref sig .tc .vmem S1024x2048 .f32) (h2 : a2.IsWhole) (a3 : Memref sig .tc .vmem S2048x64 .f32) (h3 : a3.IsWhole) (a4 : Memref sig .tc .vmem S1024x1 .f32) (h4 : a4.IsWhole) (a5 : Memref sig .tc .vmem S1x2048 .f32) (h5 : a5.IsWhole) (a6 : Memref sig .tc .vmem S1024x64 .f32) (h6 : a6.IsWhole) (a7 : Memref sig .tc .vmem S1024x64 .f32) (h7 : a7.IsWhole) (hc0 : cond0_0 i) (hc1 : ¬cond0_1 i) (x0 : Vec F S1024x2048 .f32) (x1 : Vec F S2048x64 .f32) (x2 : Vec F S1024x1 .f32) (x3 : Vec F S1x2048 .f32) :
    sout0_A_0 c i a2 h2 a3 h3 a4 h4 a5 h5 a6 h6 a7 h7 hc0 hc1 x0 x1 x2 x3 = k0_pay2 x2 x3 x0 (k0_pay1 (F := F)) x1 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x64) hz]
  simp only [View.readCov_unit_zero (S := S1024x64) _ hz, View.readAt_eq_ld, h2.read_unread, h3.read_unread, h4.read_unread, h5.read_unread, h6.read_unread, h7.read_unread, View.ld_unit_zero (S := S1024x2048) hz, View.ld_unit_zero (S := S2048x64) hz, View.ld_unit_zero (S := S1024x1) hz, View.ld_unit_zero (S := S1x2048) hz, View.ld_unit_zero (S := S1024x64) hz]

end Cert.KernelIdeal.PropValue

end
-- ==== Proof.Fold.lean ====
/-
  The accumulator across the grid.

  The grid runs 12 row blocks × 6 column tiles, the column tile fastest, so point `t` is tile `t % 6` of row block
  `t / 6`. The accumulator is reset at the points divisible by 6 and updated from its predecessor at every other
  point; hence after point `t` it is the fold, over the tiles `0 … t % 6` of row block `t / 6`, of the update —
  starting from the zero block. At the last tile of a row block the output block is stored with that same value.
-/
import proofs.«110538_j54949811585066_1_alg».proof.Proof.Pieces

noncomputable section

namespace Cert.KernelIdeal.PropValue

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

/-- The four input blocks of a point, each at its own shape: the adjacency tile, the embedding tile, the flag
    column of the row block and the flag row of the column tile. -/
abbrev adjB (c : Dev nD) (t : Fin cfg0.N) : Vec F S1024x2048 .f32 := iblk m c 0 t
abbrev embB (c : Dev nD) (t : Fin cfg0.N) : Vec F S2048x64 .f32 := iblk m c 1 t
abbrev colB (c : Dev nD) (t : Fin cfg0.N) : Vec F S1024x1 .f32 := iblk m c 2 t
abbrev rowB (c : Dev nD) (t : Fin cfg0.N) : Vec F S1x2048 .f32 := iblk m c 3 t

/-- One point's update of an accumulator holding `acc`. -/
def step (c : Dev nD) (t : Fin cfg0.N) (acc : Vec F S1024x64 .f32) : Vec F S1024x64 .f32 :=
  k0_pay2 (colB m c t) (rowB m c t) (adjB m c t) acc (embB m c t)

/-- At the first tile of a row block the accumulator ends at the update of the zero block. -/
theorem scratch_reset (c : Dev nD) (n : ℕ) (h : n < cfg0.N) (h0 : n % 6 = 0) :
    (outsAt0 m c n h).2 = step m c ⟨n, h⟩ (k0_pay1 (F := F)) := by
  have h1 : ¬n % 6 = 5 := by omega
  rw [outsAt0_A m c ⟨n, h⟩ h0 h1]
  dsimp only
  exact scratch_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩)

/-- At every other tile it ends at the update of what the point before left. -/
theorem scratch_step (c : Dev nD) (n : ℕ) (h : n + 1 < cfg0.N) (h0 : ¬(n + 1) % 6 = 0) :
    (outsAt0 m c (n + 1) h).2 = step m c ⟨n + 1, h⟩ (outsAt0 m c n (Nat.lt_of_succ_lt h)).2 := by
  by_cases h1 : (n + 1) % 6 = 5
  · rw [outsAt0_C m c ⟨n + 1, h⟩ h0 h1]
    dsimp only
    exact scratch_C c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (outsAt0 m c n (Nat.lt_of_succ_lt h)).2
  · rw [outsAt0_B m c ⟨n + 1, h⟩ h0 h1]
    dsimp only
    exact scratch_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (outsAt0 m c n (Nat.lt_of_succ_lt h)).2

/-- So after point `t` the accumulator is the fold of the update over the tiles `0 … t % 6` of its row block. -/
theorem scratch_fold (c : Dev nD) (t : ℕ) (ht : t < cfg0.N) (h' : 6 * (t / 6) + t % 6 < cfg0.N) :
    (outsAt0 m c t ht).2
      = Pipeline.accAt (fun n h => step m c ⟨n, h⟩ (k0_pay1 (F := F))) (fun n h acc => step m c ⟨n, h⟩ acc) (6 * (t / 6)) (t % 6) h' :=
  Pipeline.eq_accAt_of_mod (fun n h => (outsAt0 m c n h).2) 6 _ _
    (fun n h h0 => scratch_reset m c n h h0) (fun n h h0 => scratch_step m c n h h0) (by decide) t ht h'

/-- At the last tile of a row block the output block is stored with the accumulator's final value. -/
theorem out_eq_scratch (c : Dev nD) (t : Fin cfg0.N) (h5 : t.val % 6 = 5) :
    (outsAt0 m c t.val t.isLt).1 = (outsAt0 m c t.val t.isLt).2 := by
  have h0 : ¬t.val % 6 = 0 := by omega
  rw [outsAt0_C m c t h0 h5]
  dsimp only
  rw [out_C, scratch_C]

end Cert.KernelIdeal.PropValue

end
-- ==== Proof.Blocks.lean ====
/-
  The input blocks as entries of the arrays the region finds.

  Point `t` is column tile `t % 6` of row block `t / 6`. Its adjacency tile is rows `1024 (t / 6) + p`, columns
  `2048 (t % 6) + kk` of the adjacency; its embedding tile is rows `2048 (t % 6) + kk` of the stacked embeddings;
  its flag column is the flags of those rows and its flag row the flags of those columns — both read from the one
  flag vector, which the program re-lays as a column and as a row before the region.
-/
import proofs.«110538_j54949811585066_1_alg».proof.Proof.Fold
import Idealize.ShloMosaic.Lib.ValueIdx
import Idealize.ShloMosaic.Lib.StableHlo.Run

noncomputable section

namespace Cert.KernelIdeal.PropValue

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-! ## Where each window's block sits, decided once over the grid's 72 points -/

theorem idx_adj : ∀ t : Fin cfg0.N, win0_0.index t 0 = t.val / 6 ∧ win0_0.index t 1 = t.val % 6 :=
  (by decide +kernel : ∀ t : Fin grid0.N, win0_0.index t 0 = t.val / 6 ∧ win0_0.index t 1 = t.val % 6)
theorem idx_emb : ∀ t : Fin cfg0.N, win0_1.index t 0 = t.val % 6 ∧ win0_1.index t 1 = 0 :=
  (by decide +kernel : ∀ t : Fin grid0.N, win0_1.index t 0 = t.val % 6 ∧ win0_1.index t 1 = 0)
theorem idx_col : ∀ t : Fin cfg0.N, win0_2.index t 0 = t.val / 6 ∧ win0_2.index t 1 = 0 :=
  (by decide +kernel : ∀ t : Fin grid0.N, win0_2.index t 0 = t.val / 6 ∧ win0_2.index t 1 = 0)
theorem idx_row : ∀ t : Fin cfg0.N, win0_3.index t 0 = 0 ∧ win0_3.index t 1 = t.val % 6 :=
  (by decide +kernel : ∀ t : Fin grid0.N, win0_3.index t 0 = 0 ∧ win0_3.index t 1 = t.val % 6)
theorem idx_out : ∀ t : Fin cfg0.N, win0_4.index t 0 = t.val / 6 ∧ win0_4.index t 1 = 0 :=
  (by decide +kernel : ∀ t : Fin grid0.N, win0_4.index t 0 = t.val / 6 ∧ win0_4.index t 1 = 0)

/-! ## Block entries -/

/-- Entry `(p, kk)` of the adjacency tile is entry `(1024 (t / 6) + p, 2048 (t % 6) + kk)` of the adjacency. -/
theorem adj_read (c : Dev nD) (t : Fin cfg0.N) (p : Fin 1024) (kk : Fin 2048) (r : Fin 12288) (k : Fin 12288)
    (hr : r.val = 1024 * (t.val / 6) + p.val) (hk : k.val = 2048 * (t.val % 6) + kk.val) :
    adjB m c t (ix2 p kk) = V m c main_arg0 (ix2 r k) := by
  unfold adjB iblk
  rw [View.read_apply]
  show V m c main_arg0 _ = V m c main_arg0 _
  congr 1
  funext a
  apply Fin.ext
  match a with
  | ⟨0, _⟩ => show win0_0.index t 0 * 1024 + 1 * p.val = r.val; rw [(idx_adj t).1, hr]; omega
  | ⟨1, _⟩ => show win0_0.index t 1 * 2048 + 1 * kk.val = k.val; rw [(idx_adj t).2, hk]; omega

/-- Entry `(kk, q)` of the embedding tile is entry `(2048 (t % 6) + kk, q)` of the stacked embeddings. -/
theorem emb_read (c : Dev nD) (t : Fin cfg0.N) (p : Fin 2048) (kk : Fin 64) (r : Fin 12288) (k : Fin 64)
    (hr : r.val = 2048 * (t.val % 6) + p.val) (hk : k.val = kk.val) :
    embB m c t (ix2 p kk) = V m c main_v13 (ix2 r k) := by
  unfold embB iblk
  rw [View.read_apply]
  show V m c main_v13 _ = V m c main_v13 _
  congr 1
  funext a
  apply Fin.ext
  match a with
  | ⟨0, _⟩ => show win0_1.index t 0 * 2048 + 1 * p.val = r.val; rw [(idx_emb t).1, hr]; omega
  | ⟨1, _⟩ => show win0_1.index t 1 * 64 + 1 * kk.val = k.val; rw [(idx_emb t).2, hk]; omega

/-- Entry `(p, 0)` of the flag column block is entry `(1024 (t / 6) + p, 0)` of the flag column. -/
theorem col_read (c : Dev nD) (t : Fin cfg0.N) (p : Fin 1024) (kk : Fin 1) (r : Fin 12288) (k : Fin 1)
    (hr : r.val = 1024 * (t.val / 6) + p.val) (hk : k.val = kk.val) :
    colB m c t (ix2 p kk) = V m c main_v14 (ix2 r k) := by
  unfold colB iblk
  rw [View.read_apply]
  show V m c main_v14 _ = V m c main_v14 _
  congr 1
  funext a
  apply Fin.ext
  match a with
  | ⟨0, _⟩ => show win0_2.index t 0 * 1024 + 1 * p.val = r.val; rw [(idx_col t).1, hr]; omega
  | ⟨1, _⟩ => show win0_2.index t 1 * 1 + 1 * kk.val = k.val; rw [(idx_col t).2, hk]; omega

/-- Entry `(0, kk)` of the flag row block is entry `(0, 2048 (t % 6) + kk)` of the flag row. -/
theorem row_read (c : Dev nD) (t : Fin cfg0.N) (p : Fin 1) (kk : Fin 2048) (r : Fin 1) (k : Fin 12288)
    (hr : r.val = p.val) (hk : k.val = 2048 * (t.val % 6) + kk.val) :
    rowB m c t (ix2 p kk) = V m c main_v15 (ix2 r k) := by
  unfold rowB iblk
  rw [View.read_apply]
  show V m c main_v15 _ = V m c main_v15 _
  congr 1
  funext a
  apply Fin.ext
  match a with
  | ⟨0, _⟩ => show win0_3.index t 0 * 1 + 1 * p.val = r.val; rw [(idx_row t).1, hr]; omega
  | ⟨1, _⟩ => show win0_3.index t 1 * 2048 + 1 * kk.val = k.val; rw [(idx_row t).2, hk]; omega

/-! ## The flag column and the flag row are the flag vector re-laid -/

theorem V_flag_col (c : Dev nD) :
    V m c main_v14 = shapeCast S12288x1 (V m c main_v12) shapeCasts_S12288_S12288x1 := by
  show StableHlo.after hostOps0 (fun b => m (c, b)) (Proc.devRef .tc main_v14)
    = shapeCast S12288x1 (StableHlo.after hostOps0 (fun b => m (c, b)) (Proc.devRef .tc main_v12)) shapeCasts_S12288_S12288x1
  after_results_simp
  rfl

theorem V_flag_row (c : Dev nD) :
    V m c main_v15 = shapeCast S1x12288 (V m c main_v12) shapeCasts_S12288_S1x12288 := by
  show StableHlo.after hostOps0 (fun b => m (c, b)) (Proc.devRef .tc main_v15)
    = shapeCast S1x12288 (StableHlo.after hostOps0 (fun b => m (c, b)) (Proc.devRef .tc main_v12)) shapeCasts_S12288_S1x12288
  after_results_simp
  rfl

/-- The flag column's entry `(r, 0)` is the flag of `r`. -/
theorem flag_col_apply (c : Dev nD) (r : Fin 12288) :
    V m c main_v14 (ix2 r (0 : Fin 1)) = V m c main_v12 (ix1 r) := by
  rw [V_flag_col]
  exact shapeCast_apply _ _ (ix2 r (0 : Fin 1)) (ix1 r) (by
    rw [Shape.rowMajor_val_two, Shape.rowMajor_val_one]; show r.val = r.val * 1 + 0; omega)

/-- The flag row's entry `(0, k)` is the flag of `k`. -/
theorem flag_row_apply (c : Dev nD) (k : Fin 12288) :
    V m c main_v15 (ix2 (0 : Fin 1) k) = V m c main_v12 (ix1 k) := by
  rw [V_flag_row]
  exact shapeCast_apply _ _ (ix2 (0 : Fin 1) k) (ix1 k) (by
    rw [Shape.rowMajor_val_two, Shape.rowMajor_val_one]; show k.val = 0 * 12288 + k.val; omega)

end Cert.KernelIdeal.PropValue

end
-- ==== Proof.Payload.lean ====
/-
  The body's arithmetic at one entry.

  One grid point multiplies a 1024 × 2048 tile of the adjacency by its mask — the larger of the row flag and the
  column flag — contracts it with a 2048 × 64 tile of the embeddings, and adds the product to what the accumulator
  held. Read at entry `(p, q)` over the extended reals this is the accumulator's entry plus the sum, over the
  tile's 2048 columns, of adjacency · mask · embedding.
-/
import proofs.«110538_j54949811585066_1_alg».proof.Proof.Gen.KernelIdeal.Skeleton
import Idealize.ShloMosaic.PureOps.Ideal.Laws
import Idealize.ShloMosaic.Lib.ValueIdx
import Idealize.ShloMosaic.Lib.Pipeline.Value

noncomputable section

namespace Cert.KernelIdeal.PropValue

open Cert.KernelIdeal Cert.KernelIdeal.Gen Idealize.ShloMosaic Idealize.ShloMosaic.ValueIdx

/-- The reset block is zero at every entry. -/
theorem pay1_apply (i : S1024x64.Idx) : k0_pay1 (F := Ideal) i = 0 := by
  unfold k0_pay1
  rw [shapeCast_self]
  show Ideal.ofBits .f32 0x00000000#32 = 0
  exact Ideal.ofBits_zero_f32

/-! ## The contraction's operand indices

  The tile product contracts the left operand's axis 1 with the right operand's axis 0. At output entry `i` and
  contraction index `q` the left operand is read at row `i 0`, column `q`; the right operand at row `q`, column `i 1`. -/

theorem lhs_tile_0 (i : S1024x64.Idx) (q : dot_S1024x2048_S2048x64_S1024x64_1_0_0_1_n_n.contr.Idx) :
    (dot_S1024x2048_S2048x64_S1024x64_1_0_0_1_n_n.lhsIdx i q 0).val = (i 0).val := by
  unfold DotDims.lhsIdx
  rw [dif_neg (show ¬(0 : Fin S1024x2048.rank) ∈ dot_S1024x2048_S2048x64_S1024x64_1_0_0_1_n_n.lhsBatch by decide), dif_pos (show (0 : Fin S1024x2048.rank) ∈ dot_S1024x2048_S2048x64_S1024x64_1_0_0_1_n_n.lhsNonContracting by decide)]
  rfl
theorem lhs_tile_1 (i : S1024x64.Idx) (q : dot_S1024x2048_S2048x64_S1024x64_1_0_0_1_n_n.contr.Idx) :
    (dot_S1024x2048_S2048x64_S1024x64_1_0_0_1_n_n.lhsIdx i q 1).val = (q ⟨0, by decide⟩).val :=
  dot_S1024x2048_S2048x64_S1024x64_1_0_0_1_n_n.lhsIdx_val_of_single rfl i q
theorem rhs_tile_0 (i : S1024x64.Idx) (q : dot_S1024x2048_S2048x64_S1024x64_1_0_0_1_n_n.contr.Idx) :
    (dot_S1024x2048_S2048x64_S1024x64_1_0_0_1_n_n.rhsIdx i q 0).val = (q ⟨0, by decide⟩).val :=
  dot_S1024x2048_S2048x64_S1024x64_1_0_0_1_n_n.rhsIdx_val_of_single rfl i q
theorem rhs_tile_1 (i : S1024x64.Idx) (q : dot_S1024x2048_S2048x64_S1024x64_1_0_0_1_n_n.contr.Idx) :
    (dot_S1024x2048_S2048x64_S1024x64_1_0_0_1_n_n.rhsIdx i q 1).val = (i 1).val := by
  unfold DotDims.rhsIdx
  rw [dif_neg (show ¬(1 : Fin S2048x64.rank) ∈ dot_S1024x2048_S2048x64_S1024x64_1_0_0_1_n_n.rhsBatch by decide), dif_pos (show (1 : Fin S2048x64.rank) ∈ dot_S1024x2048_S2048x64_S1024x64_1_0_0_1_n_n.rhsNonContracting by decide)]
  rfl

/-- The tile product into the zero accumulator, read at entry `(p, q)`: the sum over the 2048 contracted
    columns of left entry `(p, kk)` times right entry `(kk, q)`. -/
theorem tile_matmul_apply (a : FVec Ideal S1024x2048 .f32) (b : FVec Ideal S2048x64 .f32) (p : Fin 1024) (q : Fin 64) :
    FloatOps.matmul (F := Ideal) dot_S1024x2048_S2048x64_S1024x64_1_0_0_1_n_n none a b (constant (F := Ideal) S1024x64 .f32 0x00000000#32) (ix2 p q)
      = ∑ kk : Fin 2048, a (ix2 p kk) * b (ix2 kk q) := by
  rw [Ideal.matmul_constant_zero_apply, ← Equiv.sum_comp (ValueIdx.contrEquiv1 dot_S1024x2048_S2048x64_S1024x64_1_0_0_1_n_n 2048 rfl rfl).symm]
  refine Finset.sum_congr rfl fun k _ => ?_
  have hk := ValueIdx.contrEquiv1_symm_val dot_S1024x2048_S2048x64_S1024x64_1_0_0_1_n_n 2048 rfl rfl k
  have el : dot_S1024x2048_S2048x64_S1024x64_1_0_0_1_n_n.lhsIdx (ix2 p q) ((ValueIdx.contrEquiv1 dot_S1024x2048_S2048x64_S1024x64_1_0_0_1_n_n 2048 rfl rfl).symm k) = ix2 p k := funext fun a => Fin.ext (by
    match a with
    | ⟨0, _⟩ => exact lhs_tile_0 _ _
    | ⟨1, _⟩ => exact (lhs_tile_1 _ _).trans hk)
  have er : dot_S1024x2048_S2048x64_S1024x64_1_0_0_1_n_n.rhsIdx (ix2 p q) ((ValueIdx.contrEquiv1 dot_S1024x2048_S2048x64_S1024x64_1_0_0_1_n_n 2048 rfl rfl).symm k) = ix2 k q := funext fun a => Fin.ext (by
    match a with
    | ⟨0, _⟩ => exact (rhs_tile_0 _ _).trans hk
    | ⟨1, _⟩ => exact rhs_tile_1 _ _)
  rw [el, er]

/-- The row flag spread along the columns: entry `(p, kk)` is the flag of row `p`. -/
theorem rowFlag_apply (v3 : Vec Ideal S1024x1 .f32) (p : Fin 1024) (kk : Fin 2048) :
    broadcastTo S1024x2048 v3 broadcasts_S1024x1_S1024x2048 (ix2 p kk) = v3 (ix2 p (0 : Fin 1)) := by
  refine broadcastTo_apply v3 _ (ix2 p kk) (ix2 p (0 : Fin 1)) fun a => ?_
  match a with
  | ⟨0, _⟩ => rfl
  | ⟨1, _⟩ => rfl

/-- The column flag spread along the rows: entry `(p, kk)` is the flag of column `kk`. -/
theorem colFlag_apply (v5 : Vec Ideal S1x2048 .f32) (p : Fin 1024) (kk : Fin 2048) :
    broadcastTo S1024x2048 v5 broadcasts_S1x2048_S1024x2048 (ix2 p kk) = v5 (ix2 (0 : Fin 1) kk) := by
  refine broadcastTo_apply v5 _ (ix2 p kk) (ix2 (0 : Fin 1) kk) fun a => ?_
  match a with
  | ⟨0, _⟩ => rfl
  | ⟨1, _⟩ => rfl

/-- The accumulating store at entry `(p, q)`: the old entry plus the tile's contraction. -/
theorem pay2_apply (v3 : Vec Ideal S1024x1 .f32) (v5 : Vec Ideal S1x2048 .f32) (v10 : Vec Ideal S1024x2048 .f32)
    (v12 : Vec Ideal S1024x64 .f32) (v13 : Vec Ideal S2048x64 .f32) (p : Fin 1024) (q : Fin 64) :
    k0_pay2 (F := Ideal) v3 v5 v10 v12 v13 (ix2 p q)
      = v12 (ix2 p q) + ∑ kk : Fin 2048, (v10 (ix2 p kk) * max (v3 (ix2 p (0 : Fin 1))) (v5 (ix2 (0 : Fin 1) kk))) * v13 (ix2 kk q) := by
  unfold k0_pay2
  simp only [shapeCast_self]
  rw [addf_apply]
  refine congrArg (v12 (ix2 p q) + ·) ?_
  refine (tile_matmul_apply _ _ p q).trans ?_
  refine Finset.sum_congr rfl fun kk _ => ?_
  rw [mulf_apply, maximumf_apply, rowFlag_apply, colFlag_apply]

end Cert.KernelIdeal.PropValue

end
-- ==== Proof.LibBlockSum.lean ====
/-
  A finite sum taken run by run.

  An index set of `n * B` elements splits into `n` consecutive runs of `B`; in a commutative monoid the sum of a
  function over the whole set is the sum, over the runs, of its sums over each run. Stated twice: over initial
  segments of the naturals, and over `Fin (n * B)` through the bijection `(s, r) ↦ r + B * s` (`finProdFinEquiv`),
  whose value is spelled out so that a caller can name the element of run `s` at offset `r` by arithmetic.
  Nothing here is about floats: the extended reals are one such monoid, and a contraction accumulated block by
  block is re-bracketed to the whole contraction by these lemmas.
-/
import Mathlib.Algebra.BigOperators.Fin
import Mathlib.Logic.Equiv.Fin.Basic

namespace LibBlockSum

open Finset

/-- Over the naturals: the first `B * n` terms are the first `n` runs of `B` terms, run `s` starting at `B * s`. -/
theorem sum_range_runs {M : Type*} [AddCommMonoid M] (B : ℕ) (f : ℕ → M) :
    ∀ n : ℕ, ∑ s ∈ range n, ∑ r ∈ range B, f (B * s + r) = ∑ k ∈ range (B * n), f k
  | 0 => by simp
  | n + 1 => by
    rw [sum_range_succ, sum_range_runs B f n, Nat.mul_succ, sum_range_add]

/-- Over `Fin (n * B)`: the sum over all indices is the sum over the runs `s` of the sums over the offsets `r`. -/
theorem sum_fin_runs {M : Type*} [AddCommMonoid M] (n B : ℕ) (f : Fin (n * B) → M) :
    ∑ s : Fin n, ∑ r : Fin B, f (finProdFinEquiv (s, r)) = ∑ k : Fin (n * B), f k :=
  (Fintype.sum_prod_type' fun s r => f (finProdFinEquiv (s, r))).symm.trans (Equiv.sum_comp finProdFinEquiv f)

/-- The element of run `s` at offset `r` sits at position `r + B * s`. -/
theorem finProdFinEquiv_val (n B : ℕ) (s : Fin n) (r : Fin B) :
    ((finProdFinEquiv (s, r) : Fin (n * B)) : ℕ) = r.val + B * s.val := rfl

/-- The same with the caller's own numbering of the runs: any `col s r : Fin N` sitting at position `r + B * s`,
    for `N = n * B` given as an equation (so that `N` may be a literal). -/
theorem sum_fin_runs_of {M : Type*} [AddCommMonoid M] (n B N : ℕ) (hN : N = n * B) (f : Fin N → M)
    (col : Fin n → Fin B → Fin N) (hcol : ∀ s r, (col s r).val = r.val + B * s.val) :
    ∑ s : Fin n, ∑ r : Fin B, f (col s r) = ∑ k : Fin N, f k := by
  subst hN
  rw [← sum_fin_runs n B f]
  refine Finset.sum_congr rfl fun s _ => Finset.sum_congr rfl fun r _ => ?_
  exact congrArg f (Fin.ext ((hcol s r).trans (finProdFinEquiv_val n B s r).symm))

/-- A sum over an initial segment of the naturals whose terms only look at the index below the bound is the sum over
    `Fin` of the same terms. -/
theorem sum_range_eq_sum_fin {M : Type*} [AddCommMonoid M] (n : ℕ) (f : ℕ → M) :
    ∑ s ∈ range n, f s = ∑ s : Fin n, f s.val :=
  (Fin.sum_univ_eq_sum_range f n).symm

end LibBlockSum
-- ==== Proof.Spec.lean ====
/-
  The propagation both programs compute, as one function of three arrays.

  With `A` the 12288 × 12288 adjacency, `E` the 12288 × 64 stacked embeddings and `fl` the 0/1 flag vector,
  the masked adjacency is `Â[r, k] = A[r, k] · max (fl[r]) (fl[k])` and the propagated embedding is the matrix product

      prop[r, q] = ∑ₖ Â[r, k] · E[k, q],   k over all 12288 columns,

  over the extended reals. The reference forms `Â` whole and takes one contraction; the kernel takes the same
  contraction 2048 columns at a time into an accumulator that starts at zero. Addition of extended reals is
  commutative and associative, so the two bracketings agree with no finiteness assumption.
-/
import Idealize.ShloMosaic.PureOps.Ideal
import Idealize.ShloMosaic.Lib.ValueIdx

noncomputable section

namespace Cert.Spec

open Idealize.ShloMosaic Idealize.ShloMosaic.ValueIdx

/-- Row `r` of the masked adjacency against column `q` of `E`. -/
def propAt (A : FVec Ideal ⟨2, ![12288, 12288]⟩ .f32) (E : FVec Ideal ⟨2, ![12288, 64]⟩ .f32)
    (fl : FVec Ideal ⟨1, ![12288]⟩ .f32) (r : Fin 12288) (q : Fin 64) : Ideal .f32 :=
  ∑ k : Fin 12288, (A (ix2 r k) * max (fl (ix1 r)) (fl (ix1 k))) * E (ix2 k q)

/-- The propagated embedding, entry by entry. -/
def prop (A : FVec Ideal ⟨2, ![12288, 12288]⟩ .f32) (E : FVec Ideal ⟨2, ![12288, 64]⟩ .f32)
    (fl : FVec Ideal ⟨1, ![12288]⟩ .f32) : FVec Ideal ⟨2, ![12288, 64]⟩ .f32 :=
  fun j => propAt A E fl (j 0) (j 1)

theorem prop_apply (A : FVec Ideal ⟨2, ![12288, 12288]⟩ .f32) (E : FVec Ideal ⟨2, ![12288, 64]⟩ .f32)
    (fl : FVec Ideal ⟨1, ![12288]⟩ .f32) (r : Fin 12288) (q : Fin 64) :
    prop A E fl (ix2 r q) = ∑ k : Fin 12288, (A (ix2 r k) * max (fl (ix1 r)) (fl (ix1 k))) * E (ix2 k q) := rfl

end Cert.Spec

end
-- ==== Proof.KernelProp.lean ====
/-
  What the kernel region leaves in its result array.

  Row block `i` of the result is written back once, after the last of its 6 column tiles. By then the accumulator
  holds  0 + T₀ + T₁ + … + T₅  in point order, where `Tₛ[p, q]` is the contraction of tile `s`: the sum over the tile's
  2048 columns `kk` of  A[r, k] · max (fl[r]) (fl[k]) · E[k, q]  with  r = 1024 i + p  and  k = 2048 s + kk.  The six
  runs of 2048 columns are all 12288 columns, each once, so the ordered sum is the whole contraction — the
  propagated embedding at `(r, q)`. The 12 row blocks tile the result array, which therefore ends holding the
  propagated embedding everywhere.
-/
import proofs.«110538_j54949811585066_1_alg».proof.Proof.Blocks
import proofs.«110538_j54949811585066_1_alg».proof.Proof.Payload
import proofs.«110538_j54949811585066_1_alg».proof.Proof.LibBlockSum
import proofs.«110538_j54949811585066_1_alg».proof.Proof.Spec
import Idealize.ShloMosaic.Lib.Pipeline.Value

noncomputable section

namespace Cert.KernelIdeal.PropValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-! ## One tile's contraction, and the accumulator as their ordered sum -/

/-- The contraction of point `t`'s tile at entry `(p, q)` of the row block. -/
def tileAt (c : Dev nD) (t : Fin cfg0.N) (p : Fin 1024) (q : Fin 64) : Ideal .f32 :=
  ∑ kk : Fin 2048, (adjB m c t (ix2 p kk) * max (colB m c t (ix2 p (0 : Fin 1))) (rowB m c t (ix2 (0 : Fin 1) kk))) * embB m c t (ix2 kk q)

/-- The same as a function of the point's number, zero past the grid. -/
def addend (c : Dev nD) (n : ℕ) (i : S1024x64.Idx) : Ideal .f32 :=
  if h : n < cfg0.N then tileAt m c ⟨n, h⟩ (i 0) (i 1) else 0

/-- One update adds the tile's contraction to every entry. -/
theorem step_apply (c : Dev nD) (t : Fin cfg0.N) (acc : Vec Ideal S1024x64 .f32) (i : S1024x64.Idx) :
    step m c t acc i = acc i + tileAt m c t (i 0) (i 1) := by
  obtain ⟨p, q, rfl⟩ : ∃ (p : Fin 1024) (q : Fin 64), i = ix2 p q := ⟨i 0, i 1, eq_ix2 i⟩
  exact pay2_apply _ _ _ _ _ p q

/-- After point `t` the accumulator is zero plus the contractions of the tiles `0 … t % 6` of its row block, in order. -/
theorem scratch_sum (c : Dev nD) (t : ℕ) (ht : t < cfg0.N) (i : S1024x64.Idx) :
    (outsAt0 m c t ht).2 i = 0 + ∑ s ∈ Finset.range (t % 6 + 1), addend m c (6 * (t / 6) + s) i := by
  have h' : 6 * (t / 6) + t % 6 < cfg0.N := by rw [Nat.div_add_mod]; exact ht
  rw [scratch_fold m c t ht h']
  refine Pipeline.accAt_add_apply (ι := S1024x64.Idx) (β := EReal) _ _ (fun _ => 0) (addend m c) (6 * (t / 6)) 5 ?_ ?_
    (t % 6) (by omega) h' i
  · intro h j
    rw [step_apply, pay1_apply]
    unfold addend
    rw [dif_pos h]
  · intro n h acc j _ _
    rw [step_apply]
    unfold addend
    rw [dif_pos h]

/-- At the last tile of a row block: all six. -/
theorem scratch_last (c : Dev nD) (t : Fin cfg0.N) (h5 : t.val % 6 = 5) (i : S1024x64.Idx) :
    (outsAt0 m c t.val t.isLt).2 i = ∑ s ∈ Finset.range 6, addend m c (6 * (t.val / 6) + s) i := by
  rw [scratch_sum m c t.val t.isLt i, h5, zero_add]

/-! ## The six tiles of a row are its 12288 columns -/

/-- The three arrays the region reads, each at its own shape: the adjacency, the stacked embeddings, the flag vector. -/
abbrev adjArr (c : Dev nD) : FVec Ideal S12288x12288 .f32 := V m c main_arg0
abbrev embArr (c : Dev nD) : FVec Ideal S12288x64 .f32 := V m c main_v13
abbrev flagArr (c : Dev nD) : FVec Ideal S12288 .f32 := V m c main_v12

/-- Column `kk` of tile `s`. -/
def tileCol (s : Fin 6) (kk : Fin 2048) : Fin 12288 :=
  ⟨kk.val + 2048 * s.val, by have := s.isLt; have := kk.isLt; omega⟩

/-- Tile `s` of row block `t / 6`, read on the arrays the region found: the columns `2048 s + kk` of row `r`. -/
theorem tile_eq (c : Dev nD) (n : ℕ) (h : n < cfg0.N) (s : Fin 6) (hm : n % 6 = s.val) (p : Fin 1024) (q : Fin 64) (r : Fin 12288)
    (hr : r.val = 1024 * (n / 6) + p.val) :
    tileAt m c ⟨n, h⟩ p q
      = ∑ kk : Fin 2048, (adjArr m c (ix2 r (tileCol s kk)) * max (flagArr m c (ix1 r)) (flagArr m c (ix1 (tileCol s kk))))
          * embArr m c (ix2 (tileCol s kk) q) := by
  unfold tileAt
  refine Finset.sum_congr rfl fun kk _ => ?_
  have hk : (tileCol s kk).val = 2048 * ((⟨n, h⟩ : Fin cfg0.N).val % 6) + kk.val := by
    show kk.val + 2048 * s.val = 2048 * (n % 6) + kk.val
    rw [hm]; omega
  rw [adj_read m c ⟨n, h⟩ p kk r (tileCol s kk) hr hk,
    emb_read m c ⟨n, h⟩ kk q (tileCol s kk) q hk rfl,
    col_read m c ⟨n, h⟩ p (0 : Fin 1) r (0 : Fin 1) hr rfl,
    row_read m c ⟨n, h⟩ (0 : Fin 1) kk (0 : Fin 1) (tileCol s kk) rfl hk,
    flag_col_apply, flag_row_apply]

/-! ## What a write-back stores, the cover, and the array after the region -/

/-- The point that finishes row block `t / 6` writes back that block of the propagated embedding. -/
theorem flushed_eq (c : Dev nD) (t : Fin cfg0.N) (hf : (cfg0.win 4).flush t = true) :
    (dats m 0 c).flushed 4 t
      = ((cfg0.win 4).blk t).view.read (Elt Ideal) (Cert.Spec.prop (V m c main_arg0) (V m c main_v13) (V m c main_v12)) := by
  have h5 : t.val % 6 = 5 := (flush0_4 t).mp hf
  have hN : t.val < 72 := lt_of_lt_of_eq t.isLt (show cfg0.N = 72 from N_0)
  show (cfg0.win 4).cut (grid0.coords t) ((dats m 0 c).after 4 t) = _
  rw [after0_4, out_eq_scratch m c t h5]
  funext y
  obtain ⟨p, q, rfl⟩ : ∃ (p : Fin 1024) (q : Fin 64), y = ix2 p q := ⟨y 0, y 1, eq_ix2 y⟩
  have hp : p.val < 1024 := p.isLt
  -- the row of the array this entry of the block sits in
  obtain ⟨r, hr⟩ : ∃ r : Fin 12288, r.val = 1024 * (t.val / 6) + p.val := ⟨⟨1024 * (t.val / 6) + p.val, by omega⟩, rfl⟩
  have he : ((cfg0.win 4).blk t).view.emb (ix2 p q) = ix2 r q := by
    funext a; apply Fin.ext
    match a with
    | ⟨0, _⟩ => show win0_4.index t 0 * 1024 + 1 * p.val = r.val; rw [(idx_out t).1, hr]; omega
    | ⟨1, _⟩ => show win0_4.index t 1 * 64 + 1 * q.val = q.val; rw [(idx_out t).2]; omega
  show (outsAt0 m c t.val t.isLt).2 (ix2 p q)
    = Cert.Spec.prop (V m c main_arg0) (V m c main_v13) (V m c main_v12) (((cfg0.win 4).blk t).view.emb (ix2 p q))
  rw [he, Cert.Spec.prop_apply, scratch_last m c t h5 (ix2 p q), LibBlockSum.sum_range_eq_sum_fin 6,
    ← LibBlockSum.sum_fin_runs_of 6 2048 12288 (by decide) _ tileCol (fun _ _ => rfl)]
  refine Finset.sum_congr rfl fun s _ => ?_
  have hs : s.val < 6 := s.isLt
  have hlt : 6 * (t.val / 6) + s.val < cfg0.N :=
    lt_of_lt_of_eq (show 6 * (t.val / 6) + s.val < 72 by omega) (show cfg0.N = 72 from N_0).symm
  unfold addend
  rw [dif_pos hlt]
  exact tile_eq m c _ hlt s (by omega) p q r (by rw [hr]; omega)

/-- Every entry of the result array lies in the block written back after the last tile of its row block. -/
theorem covered (c : Dev nD) (i : S12288x64.Idx) :
    ∃ t : Fin cfg0.N, (cfg0.win 4).flush t = true ∧ i ∈ ((cfg0.win 4).blk t).view.set := by
  have hi0 : (i 0).val < 12288 := (i 0).isLt
  have hi1 : (i 1).val < 64 := (i 1).isLt
  obtain ⟨t, ht⟩ : ∃ t : Fin cfg0.N, t.val = 6 * ((i 0).val / 1024) + 5 :=
    ⟨⟨6 * ((i 0).val / 1024) + 5, by rw [show cfg0.N = 72 from N_0]; omega⟩, rfl⟩
  refine ⟨t, (flush0_4 t).mpr (by rw [ht]; omega), ?_⟩
  show i ∈ ((View.whole main_v16).slice (win0_4.rect t)).set
  rw [View.set_slice_whole, Rect.mem_set_unit]
  intro a
  match a with
  | ⟨0, _⟩ =>
    show win0_4.index t 0 * 1024 ≤ (i 0).val ∧ (i 0).val < win0_4.index t 0 * 1024 + 1024
    rw [(idx_out t).1, ht]; omega
  | ⟨1, _⟩ =>
    show win0_4.index t 1 * 64 ≤ (i 1).val ∧ (i 1).val < win0_4.index t 1 * 64 + 64
    rw [(idx_out t).2]; omega

/-- After the region the result array holds the propagated embedding of the arrays the region found. -/
theorem final_prop (c : Dev nD) :
    (dats m 0 c).arrAt 4 cfg0.N = Cert.Spec.prop (V m c main_arg0) (V m c main_v13) (V m c main_v12) :=
  (dats m 0 c).arrAt_eq_of_cover 4 _ (flushed_eq m c) (covered c)

end Cert.KernelIdeal.PropValue

end
-- ==== Proof.RefProp.lean ====
/-
  The reference's contraction is the propagated embedding.

  The reference spreads the flag vector along the columns and along the rows, takes the entrywise maximum, multiplies
  the adjacency by it, and contracts the product with the stacked embeddings in one `dot_general`. Read at entry
  `(r, q)` that is the sum over all columns `k` of  A[r, k] · max (fl[r]) (fl[k]) · E[k, q]  — the specification,
  term by term.
-/
import proofs.«110538_j54949811585066_1_alg».proof.Proof.Gen.ReferenceIdeal.Read
import proofs.«110538_j54949811585066_1_alg».proof.Proof.Spec

noncomputable section

namespace Cert.ReferenceIdeal.RefValue

open Cert.ReferenceIdeal Cert.ReferenceIdeal.Read Idealize.ShloMosaic Idealize.ShloMosaic.ValueIdx

theorem dot_is_prop (x0 : (⟨S12288x12288, .f32⟩ : BufTy).Contents (Elt Ideal)) (x1 x2 : (⟨S6144x64, .f32⟩ : BufTy).Contents (Elt Ideal))
    (x3 x4 : (⟨S2048, .i32⟩ : BufTy).Contents (Elt Ideal)) :
    val_main_v20 (F := Ideal) x0 x1 x2 x3 x4
      = Cert.Spec.prop x0 (val_main_v19 (F := Ideal) x1 x2) (val_main_v12 (F := Ideal) x3 x4) := by
  funext i
  obtain ⟨r, q, rfl⟩ : ∃ (r : Fin 12288) (q : Fin 64), i = ix2 r q := ⟨i 0, i 1, eq_ix2 i⟩
  rw [val_main_v20_apply, Cert.Spec.prop_apply]
  refine Finset.sum_congr rfl fun k _ => ?_
  -- the left operand at (r, k) and the right operand at (k, q)
  have e1 : lidx_main_v20 (ix2 r q) k = ix2 r k := funext fun a => Fin.ext (by
    match a with
    | ⟨0, _⟩ => rfl
    | ⟨1, _⟩ => rfl)
  have e2 : ridx_main_v20 (ix2 r q) k = ix2 k q := funext fun a => Fin.ext (by
    match a with
    | ⟨0, _⟩ => rfl
    | ⟨1, _⟩ => rfl)
  -- the column-spread flag at (r, k) is the flag of r, the row-spread flag the flag of k
  have e3 : idx_main_v13 (idx_main_v15 (ix2 r k)) = ix1 r := funext fun a => Fin.ext (by
    match a with
    | ⟨0, _⟩ => rfl)
  have e4 : idx_main_v14 (idx_main_v16 (ix2 r k)) = ix1 k := funext fun a => Fin.ext (by
    match a with
    | ⟨0, _⟩ => rfl)
  rw [e1, e2, val_main_v18_apply, val_main_v17_apply, val_main_v15_apply, val_main_v13_apply, val_main_v16_apply,
    val_main_v14_apply, e3, e4]
  rfl

end Cert.ReferenceIdeal.RefValue

end
-- ==== Proof.KernelRun.lean ====
/-
  The kernel program's run, read: its three results as the reference's stages of the launch arguments.
-/
import proofs.«110538_j54949811585066_1_alg».proof.Proof.KernelProp
import proofs.«110538_j54949811585066_1_alg».proof.Proof.RefProp
import Idealize.ShloMosaic.Lib.StableHlo.Run

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ)

/-- The stacked embeddings the region finds are the reference's concatenation of the two launched halves. -/
theorem V_emb (c : Dev nD) :
    V m c main_v13 = Cert.ReferenceIdeal.Read.val_main_v19 (F := Ideal) (m ((c.tc : Thread nD τ).loc main_arg1)) (m ((c.tc : Thread nD τ).loc main_arg2)) := by
  show StableHlo.after hostOps0 (fun b => m (c, b)) (Proc.devRef .tc main_v13) = _
  after_results
  rfl

/-- The flag vector the region finds is the reference's scatter of ones at the launched indices: the same
    operations on the same arguments, the index vector's three readers each reading the one concatenation. -/
theorem V_flag (c : Dev nD) :
    V m c main_v12 = Cert.ReferenceIdeal.Read.val_main_v12 (F := Ideal) (m ((c.tc : Thread nD τ).loc main_arg3)) (m ((c.tc : Thread nD τ).loc main_arg4)) := by
  show StableHlo.after hostOps0 (fun b => m (c, b)) (Proc.devRef .tc main_v12) = _
  after_results_simp
  repeat (first
    | rw [StableHlo.nullary_result] | rw [StableHlo.unary_result] | rw [StableHlo.binary_result] | rw [StableHlo.ternary_result]
    | rw [StableHlo.reshape_result]
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide)
    | (rw [StableHlo.reshape_result_ne]; rotate_left; decide))
  unfold Cert.ReferenceIdeal.Read.val_main_v12 Cert.ReferenceIdeal.Read.val_main_v4 Cert.ReferenceIdeal.Read.val_main_v10 Cert.ReferenceIdeal.Read.val_main_v11 Cert.ReferenceIdeal.Read.val_main_v9 Cert.ReferenceIdeal.Read.val_main_v6 Cert.ReferenceIdeal.Read.val_main_v8 Cert.ReferenceIdeal.Read.val_main_v3 Cert.ReferenceIdeal.Read.val_main_v5 Cert.ReferenceIdeal.Read.val_main_v7 Cert.ReferenceIdeal.Read.val_main_v0 Cert.ReferenceIdeal.Read.val_main_v2 Cert.ReferenceIdeal.Read.val_main_v1 Cert.ReferenceIdeal.Read.val_main_c Cert.ReferenceIdeal.Read.val_main_cst Cert.ReferenceIdeal.Read.val_main_c_0 Cert.ReferenceIdeal.Read.val_main_c_1 Cert.ReferenceIdeal.Read.val_main_cst_2
  rfl

/-- What the region leaves in its result array is the reference's contraction of the launched arguments: both are
    the propagated embedding of the adjacency, the stacked embeddings and the flag vector. -/
theorem region_val (c : Dev nD) :
    (dats m 0 c).arrAt 4 cfg0.N = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [Cert.KernelIdeal.PropValue.final_prop m c, V_main_arg0 m c, V_emb m c, V_flag m c]
  exact (Cert.ReferenceIdeal.RefValue.dot_is_prop _ _ _ _ _).symm

/-! ## What the operations after the region read -/

/-- The region's result array, as the later operations find it. -/
theorem W_out (c : Dev nD) :
    Pipeline.withArrays (cfgs 0).spec c (V0 m c) (fun w => (dats m 0 c).arrAt w (cfgs 0).N) (Proc.devRef .tc main_v16) = Cert.ReferenceIdeal.Read.val_main_v20 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (Pipeline.withArrays_arr spec0 launch0.win.arr_inj c _ _ 4).trans (region_val m c)

/-- The stacked embeddings, an input the region only reads, as the later operations find them. -/
theorem W_emb (c : Dev nD) :
    Pipeline.withArrays (cfgs 0).spec c (V0 m c) (fun w => (dats m 0 c).arrAt w (cfgs 0).N) (Proc.devRef .tc main_v13) = Cert.ReferenceIdeal.Read.val_main_v19 (F := Ideal) (m ((c.tc : Thread nD τ).loc main_arg1)) (m ((c.tc : Thread nD τ).loc main_arg2)) :=
  (Pipeline.withArrays_arr spec0 launch0.win.arr_inj c _ _ 1).trans
    (((dats m 0 c).arrAt_in 1 rfl _).trans ((A_eq m c 1).trans (V_emb m c)))

/-- The three index arguments are no array of the pipeline: the later operations find them as launched. -/
theorem W_arg3 (c : Dev nD) : Pipeline.withArrays (cfgs 0).spec c (V0 m c) (fun w => (dats m 0 c).arrAt w (cfgs 0).N) (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)
theorem W_arg4 (c : Dev nD) : Pipeline.withArrays (cfgs 0).spec c (V0 m c) (fun w => (dats m 0 c).arrAt w (cfgs 0).N) (Proc.devRef .tc main_arg4) = m ((c.tc : Thread nD τ).loc main_arg4) :=
  (Pipeline.withArrays_of_ne _ c (V0 m c) _ main_arg4 (by exact (by decide : ∀ w, Pipeline.arrRef spec0 w ≠ main_arg4))).trans (V_main_arg4 m c)
theorem W_arg5 (c : Dev nD) : Pipeline.withArrays (cfgs 0).spec c (V0 m c) (fun w => (dats m 0 c).arrAt w (cfgs 0).N) (Proc.devRef .tc main_arg5) = m ((c.tc : Thread nD τ).loc main_arg5) :=
  (Pipeline.withArrays_of_ne _ c (V0 m c) _ main_arg5 (by exact (by decide : ∀ w, Pipeline.arrRef spec0 w ≠ main_arg5))).trans (V_main_arg5 m c)

/-! ## The three results -/

/-- The first result: the later operations, read on what the region left, are the reference's own operations on its contraction: rows of the upper half of (E + 3 · prop) / 4 gathered at the first index argument. -/
theorem tail29 (c : Dev nD) :
    Pipeline.afterTail₀ cfgs (dats m) 0 (V0 m) [hostOps1] c main_v29 = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v29) = _
  after_results_simp
  rw [W_emb m c, W_out m c, W_arg3 m c]
  unfold Cert.ReferenceIdeal.Read.val_main_v33 Cert.ReferenceIdeal.Read.val_main_v26 Cert.ReferenceIdeal.Read.val_main_v25 Cert.ReferenceIdeal.Read.val_main_v23 Cert.ReferenceIdeal.Read.val_main_v22 Cert.ReferenceIdeal.Read.val_main_v21 Cert.ReferenceIdeal.Read.val_main_cst_3 Cert.ReferenceIdeal.Read.val_main_v24 Cert.ReferenceIdeal.Read.val_main_cst_4 Cert.ReferenceIdeal.Read.val_main_v32 Cert.ReferenceIdeal.Read.val_main_v31 Cert.ReferenceIdeal.Read.val_main_v28 Cert.ReferenceIdeal.Read.val_main_v27 Cert.ReferenceIdeal.Read.val_main_c_5 Cert.ReferenceIdeal.Read.val_main_v30 Cert.ReferenceIdeal.Read.val_main_v29 Cert.ReferenceIdeal.Read.val_main_c_6
  rfl

/-- The second result: rows of the lower half gathered at the second index argument. -/
theorem tail37 (c : Dev nD) :
    Pipeline.afterTail₀ cfgs (dats m) 0 (V0 m) [hostOps1] c main_v37 = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold Pipeline.afterTail₀
  show StableHlo.after hostOps1 _ (Proc.devRef .tc main_v37) = _
  after_results_simp
  rw [W_emb m c, W_out m c, W_arg4 m c]
  unfold Cert.ReferenceIdeal.Read.val_main_v41 Cert.ReferenceIdeal.Read.val_main_v34 Cert.ReferenceIdeal.Read.val_main_v25 Cert.ReferenceIdeal.Read.val_main_v23 Cert.ReferenceIdeal.Read.val_main_v22 Cert.ReferenceIdeal.Read.val_main_v21 Cert.ReferenceIdeal.Read.val_main_cst_3 Cert.ReferenceIdeal.Read.val_main_v24 Cert.ReferenceIdeal.Read.val_main_cst_4 Cert.ReferenceIdeal.Read.val_main_v40 Cert.ReferenceIdeal.Read.val_main_v39 Cert.ReferenceIdeal.Read.val_main_v36 Cert.ReferenceIdeal.Read.val_main_v35 Cert.ReferenceIdeal.Read.val_main_c_7 Cert.ReferenceIdeal.Read.val_main_v38 Cert.ReferenceIdeal.Read.val_main_v37 Cert.ReferenceIdeal.Read.val_main_c_8
  rfl

/-- The third result: rows of the lower half gathered at the third index argument. -/
theorem tail45 (c : Dev nD) :
    Pipeline.afterTail₀ cfgs (dats m) 0 (V0 m) [hostOps1] c main_v45 = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Pipeline.afterTail₀
  show StableHlo.after hostOps1 _ (Proc.devRef .tc main_v45) = _
  after_results_simp
  rw [W_emb m c, W_out m c, W_arg5 m c]
  unfold Cert.ReferenceIdeal.Read.val_main_v49 Cert.ReferenceIdeal.Read.val_main_v42 Cert.ReferenceIdeal.Read.val_main_v25 Cert.ReferenceIdeal.Read.val_main_v23 Cert.ReferenceIdeal.Read.val_main_v22 Cert.ReferenceIdeal.Read.val_main_v21 Cert.ReferenceIdeal.Read.val_main_cst_3 Cert.ReferenceIdeal.Read.val_main_v24 Cert.ReferenceIdeal.Read.val_main_cst_4 Cert.ReferenceIdeal.Read.val_main_v48 Cert.ReferenceIdeal.Read.val_main_v47 Cert.ReferenceIdeal.Read.val_main_v44 Cert.ReferenceIdeal.Read.val_main_v43 Cert.ReferenceIdeal.Read.val_main_c_9 Cert.ReferenceIdeal.Read.val_main_v46 Cert.ReferenceIdeal.Read.val_main_v45 Cert.ReferenceIdeal.Read.val_main_c_10
  rfl

/-! ## The run -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v29) = Cert.ReferenceIdeal.Read.val_main_v33 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v37) = Cert.ReferenceIdeal.Read.val_main_v41 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v45) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono (fun _ h c =>
    ⟨((h c).2 main_v29 (Pipeline.mem_restRefs_of main_v29 (by decide) (by decide))).trans (tail29 m c),
     ((h c).2 main_v37 (Pipeline.mem_restRefs_of main_v37 (by decide) (by decide))).trans (tail37 m c),
     ((h c).2 main_v45 (Pipeline.mem_restRefs_of main_v45 (by decide) (by decide))).trans (tail45 m c),
     ((h c).1 0).trans (((dats m 0 c).arrAt_in 0 rfl _).trans ((A_eq m c 0).trans (V_main_arg0 m c))),
     (((h c).2 main_arg1 (Pipeline.mem_restRefs_of main_arg1 (by decide) (by decide))).trans (W_main_arg1 m (dats m) c)),
     (((h c).2 main_arg2 (Pipeline.mem_restRefs_of main_arg2 (by decide) (by decide))).trans (W_main_arg2 m (dats m) c)),
     (((h c).2 main_arg3 (Pipeline.mem_restRefs_of main_arg3 (by decide) (by decide))).trans (W_main_arg3 m (dats m) c)),
     (((h c).2 main_arg4 (Pipeline.mem_restRefs_of main_arg4 (by decide) (by decide))).trans (W_main_arg4 m (dats m) c)),
     (((h c).2 main_arg5 (Pipeline.mem_restRefs_of main_arg5 (by decide) (by decide))).trans (W_main_arg5 m (dats m) c)),
     (((h c).2 main_arg6 (Pipeline.mem_restRefs_of main_arg6 (by decide) (by decide))).trans (W_main_arg6 m (dats m) c))⟩) (run_main m ρ)

end Cert.KernelIdeal.RunValue

end
-- ==== Proof.lean ====
/-
  A masked-adjacency propagation step: the kernel against its jnp reference, over the extended reals.

  Both programs build a 0/1 flag vector `fl` by scattering ones at `users[0]` and `6144 + pos_items`, stack the
  two embedding tables into `E` (12288 × 64), and return three row gathers of  (E + 3 · prop) / 4,  where

      prop[r, q] = ∑ₖ A[r, k] · max (fl[r]) (fl[k]) · E[k, q]        (k over the 12288 columns of the adjacency A).

  The reference multiplies `A` by the mask whole and takes one `dot_general`. The kernel walks a 12 × 6 grid of
  1024 × 2048 tiles of `A`, builds each tile's mask from a 1024-entry column and a 2048-entry row of flags, and
  adds the tile's product with the matching 2048 rows of `E` into a 1024 × 64 accumulator that is zeroed at the
  first tile of a row block and copied out after the last. So the kernel's row block is the ordered sum
  0 + T₀ + … + T₅ of six partial contractions, and the reference's is the contraction over all columns at once:
  the same terms, bracketed differently. Addition on the extended reals is commutative and associative, so the two
  agree for every input — the claim's finiteness precondition is never opened.

  Everything before the contraction (the scatter, the stacking) and everything after it (the scaling, the slices,
  the gathers) is the same sequence of operations with the same constants in both programs, and is carried along
  unopened: the kernel's three results are stated as the reference's own stages of the launch arguments.
  The three frames are the generated ones (the reference's is its generated run with the results dropped); the ideal
  pass rewrote nothing, so `preserves` is trivial.
-/
import proofs.«110538_j54949811585066_1_alg».proof.Defs
import proofs.«110538_j54949811585066_1_alg».proof.Proof.Gen.Kernel
import proofs.«110538_j54949811585066_1_alg».proof.Proof.Gen.Kernel.Frame
import proofs.«110538_j54949811585066_1_alg».proof.Proof.Gen.KernelIdeal
import proofs.«110538_j54949811585066_1_alg».proof.Proof.Gen.KernelIdeal.Frame
import proofs.«110538_j54949811585066_1_alg».proof.Proof.Gen.ReferenceIdeal
import proofs.«110538_j54949811585066_1_alg».proof.Proof.Gen.ReferenceIdeal.Run
import proofs.«110538_j54949811585066_1_alg».proof.Proof.Gen.ReferenceIdeal.Read
import proofs.«110538_j54949811585066_1_alg».proof.Proof.Gen.Pre_finite_inputs
import proofs.«110538_j54949811585066_1_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is host operations only: its run, with the three results dropped, is its frame. -/
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with their three results at the reference's stages of arguments that agree: the kernel's run
    is read in those terms (the region's array being the reference's contraction), the reference's run states them. -/
theorem algebraic : Cert.algebraic_KernelIdeal_ReferenceIdeal := by
  intro m ρ m' ρ' _ hagree
  refine ⟨fun c => Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v41 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    fun c => Cert.ReferenceIdeal.Read.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.RunValue.run m ρ, ?_⟩
  refine (θ_run Cert.ReferenceIdeal.defs _ _).mono (fun _ h c => ?_) (Cert.ReferenceIdeal.Value.run (F := Ideal) m' ρ')
  obtain ⟨h33, h41, h49, hargs⟩ := h c
  obtain ⟨e0, e1, e2, e3, e4, e5, _⟩ := hagree c
  refine ⟨h33.trans ?_, h41.trans ?_, h49.trans ?_, hargs⟩
  · rw [Cert.ReferenceIdeal.Read.val_main_v33_eq, e0, e1, e2, e3, e4]
  · rw [Cert.ReferenceIdeal.Read.val_main_v41_eq, e0, e1, e2, e3, e4]
  · rw [Cert.ReferenceIdeal.Read.val_main_v49_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
